-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x64 : Shape := ⟨3, ![8, 2048, 64]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn {F : FTy → Type} [FloatOps F] (main_arg0 : FVec F S8x4096x2048 .f32) (main_arg1 : FVec F S8x2048x64 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  main_v8
-- ==== Kernel.lean ====
abbrev S8x4096x2048 : Shape := ⟨3, ![8, 4096, 2048]⟩
abbrev S8x2048x64 : Shape := ⟨3, ![8, 2048, 64]⟩
abbrev S8x4096x64 : Shape := ⟨3, ![8, 4096, 64]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S8x2048x64, .f32⟩
  | .hbm, ⟨2, _⟩ => ⟨S8x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x4096x64.size a
  hwx0_2 : ∀ i : grid0.Coords, EltTy.bits .f32 = 32 ∨ (Rect.block (s := S8x4096x64) S1x1024x64.size (cc0_transform_2 i) (hinb0_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x64 : Shape := ⟨3, ![8, 2048, 64]⟩
abbrev S8x4096x64 : Shape := ⟨3, ![8, 4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x64, .f32⟩
  | .hbm, ⟨2, _⟩ => ⟨S8x4096x64, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x2048_S8x2048x64_S8x4096x64_2_1_1_2_0_0_wf : DotDims.WF S8x4096x2048 S8x2048x64 S8x4096x64 [2] [1] [1] [2] [0] [0]

variable [Facts₀]

def dot_S8x4096x2048_S8x2048x64_S8x4096x64_2_1_1_2_0_0 : DotDims S8x4096x2048 S8x2048x64 S8x4096x64 where
  lhsContracting := [2]
  rhsContracting := [1]
  lhsNonContracting := [1]
  rhsNonContracting := [2]
  lhsBatch := [0]
  rhsBatch := [0]
  wf := dot_S8x4096x2048_S8x2048x64_S8x4096x64_2_1_1_2_0_0_wf

class Facts : Prop extends Facts₀ where

variable [Facts]
-- ==== Proof.BlockProduct.lean ====
/-
  What the kernel body stores at one grid point, entry by entry. The body loads a [1, 1024, 2048] block X and a
  [1, 2048, 64] block W, drops their unit leading axes, changes the float format of both (the identity on extended
  reals), multiplies the 1024 × 2048 matrix by the 2048 × 64 matrix into a zero accumulator, and puts the unit leading
  axis back. So entry (0, r, q) of what it stores is the sum over the inner coordinate d of X[0, r, d] · W[0, d, q].
-/
import proofs.«163234_j52132313039179_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.BlockProduct

open Cert.KernelIdeal Cert.KernelIdeal.Gen
open Idealize.ShloMosaic Idealize.ShloMosaic.ValueIdx

/-! ## The matrix product's operand indices, axis by axis

The product has no batch axis; it contracts the left operand's axis 1 with the right operand's axis 0. At output index
`j` = (r, q) and contraction position `k` the left operand is read at (r, k) and the right at (k, q). -/

theorem left_row (j : S1024x64.Idx) (k : dot_S1024x2048_S2048x64_S1024x64_1_0_0_1_n_n.contr.Idx) :
    (dot_S1024x2048_S2048x64_S1024x64_1_0_0_1_n_n.lhsIdx j k 0).val = (j 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem left_inner (j : S1024x64.Idx) (k : dot_S1024x2048_S2048x64_S1024x64_1_0_0_1_n_n.contr.Idx) :
    (dot_S1024x2048_S2048x64_S1024x64_1_0_0_1_n_n.lhsIdx j k 1).val = (k ⟨0, by decide⟩).val :=
  dot_S1024x2048_S2048x64_S1024x64_1_0_0_1_n_n.lhsIdx_val_of_single rfl j k
theorem right_inner (j : S1024x64.Idx) (k : dot_S1024x2048_S2048x64_S1024x64_1_0_0_1_n_n.contr.Idx) :
    (dot_S1024x2048_S2048x64_S1024x64_1_0_0_1_n_n.rhsIdx j k 0).val = (k ⟨0, by decide⟩).val :=
  dot_S1024x2048_S2048x64_S1024x64_1_0_0_1_n_n.rhsIdx_val_of_single rfl j k
theorem right_col (j : S1024x64.Idx) (k : dot_S1024x2048_S2048x64_S1024x64_1_0_0_1_n_n.contr.Idx) :
    (dot_S1024x2048_S2048x64_S1024x64_1_0_0_1_n_n.rhsIdx j k 1).val = (j 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The matrix product into the zero accumulator, read at (r, q): the sum over d of A[r, d] · B[d, q]. The sum over the
    one-axis contraction index is re-indexed by its one coordinate. -/
theorem product_apply {φ₁ φ₂ : FTy} (A : FVec Ideal S1024x2048 φ₁) (B : FVec Ideal S2048x64 φ₂) (r : Fin 1024) (q : Fin 64) :
    matmul dot_S1024x2048_S2048x64_S1024x64_1_0_0_1_n_n none A B (constant S1024x64 .f32 0x00000000#32) (ix2 r q)
      = ∑ d : Fin 2048, A (ix2 r d) * B (ix2 d q) := by
  simp only [matmul]
  rw [Ideal.matmul_constant_zero_apply, ← Equiv.sum_comp (contrEquiv1 dot_S1024x2048_S2048x64_S1024x64_1_0_0_1_n_n 2048 rfl rfl).symm]
  refine Finset.sum_congr rfl fun d _ => ?_
  have hd := contrEquiv1_symm_val dot_S1024x2048_S2048x64_S1024x64_1_0_0_1_n_n 2048 rfl rfl d
  have el : dot_S1024x2048_S2048x64_S1024x64_1_0_0_1_n_n.lhsIdx (ix2 r q) ((contrEquiv1 dot_S1024x2048_S2048x64_S1024x64_1_0_0_1_n_n 2048 rfl rfl).symm d) = ix2 r d := funext fun a => Fin.ext (by
    match a with
    | ⟨0, _⟩ => exact left_row _ _
    | ⟨1, _⟩ => exact (left_inner _ _).trans hd)
  have er : dot_S1024x2048_S2048x64_S1024x64_1_0_0_1_n_n.rhsIdx (ix2 r q) ((contrEquiv1 dot_S1024x2048_S2048x64_S1024x64_1_0_0_1_n_n 2048 rfl rfl).symm d) = ix2 d q := funext fun a => Fin.ext (by
    match a with
    | ⟨0, _⟩ => exact (right_inner _ _).trans hd
    | ⟨1, _⟩ => exact right_col _ _)
  rw [el, er]

/-- Dropping the unit leading axis of the left block: (r, d) reads (0, r, d). -/
theorem left_cast_apply (X : Vec Ideal S1x1024x2048 .f32) (r : Fin 1024) (d : Fin 2048) :
    shapeCast S1024x2048 X shapeCasts_S1x1024x2048_S1024x2048 (ix2 r d) = X (ix3 (0 : Fin 1) r d) :=
  shapeCast_apply X _ (ix2 r d) (ix3 (0 : Fin 1) r d) (by
    rw [Shape.rowMajor_val_three, Shape.rowMajor_val_two]
    show (0 * 1024 + r.val) * 2048 + d.val = r.val * 2048 + d.val
    omega)

/-- Dropping the unit leading axis of the right block: (d, q) reads (0, d, q). -/
theorem right_cast_apply (W : Vec Ideal S1x2048x64 .f32) (d : Fin 2048) (q : Fin 64) :
    shapeCast S2048x64 W shapeCasts_S1x2048x64_S2048x64 (ix2 d q) = W (ix3 (0 : Fin 1) d q) :=
  shapeCast_apply W _ (ix2 d q) (ix3 (0 : Fin 1) d q) (by
    rw [Shape.rowMajor_val_three, Shape.rowMajor_val_two]
    show (0 * 2048 + d.val) * 64 + q.val = d.val * 64 + q.val
    omega)

/-- Entry (p, r, q) of what the body stores (p is the unit axis' only coordinate): the sum over d of
    X[0, r, d] · W[0, d, q]. -/
theorem stored_apply (X : Vec Ideal S1x1024x2048 .f32) (W : Vec Ideal S1x2048x64 .f32) (p : Fin 1) (r : Fin 1024) (q : Fin 64) :
    k0_pay1 (F := Ideal) X W (ix3 p r q) = ∑ d : Fin 2048, X (ix3 (0 : Fin 1) r d) * W (ix3 (0 : Fin 1) d q) := by
  unfold k0_pay1
  refine (shapeCast_apply _ shapeCasts_S1024x64_S1x1024x64 (ix3 p r q) (ix2 r q) (by
    rw [Shape.rowMajor_val_three, Shape.rowMajor_val_two]
    show r.val * 64 + q.val = (p.val * 1024 + r.val) * 64 + q.val
    have hp : p.val = 0 := by have := p.isLt; omega
    rw [hp]; omega)).trans ?_
  rw [product_apply]
  refine Finset.sum_congr rfl fun d _ => ?_
  rw [truncf_apply, truncf_apply, left_cast_apply, right_cast_apply]

/-- The same at any index `j` of the stored block: its row is j₁ and its column j₂. -/
theorem stored_at (X : Vec Ideal S1x1024x2048 .f32) (W : Vec Ideal S1x2048x64 .f32) (j : S1x1024x64.Idx) :
    k0_pay1 (F := Ideal) X W j = ∑ d : Fin 2048, X (ix3 (0 : Fin 1) (j 1) d) * W (ix3 (0 : Fin 1) d (j 2)) := by
  obtain ⟨p, r, q, rfl⟩ : ∃ (p : Fin 1) (r : Fin 1024) (q : Fin 64), j = ix3 p r q := ⟨j 0, j 1, j 2, eq_ix3 j⟩
  exact stored_apply X W p r q

end Cert.BlockProduct

end
-- ==== Proof.Product.lean ====
/-
  The batched matrix product both programs compute. For each of eight batch members b, X_b is a 4096 × 2048 matrix
  and W_b a 2048 × 64 matrix of extended reals; entry (b, s, r) of the result is the sum over the 2048 inner
  coordinates d of X_b[s, d] · W_b[d, r]. Addition on the extended reals is commutative and associative, so the sum
  over the finite inner range is one number whatever the order of its terms; nothing here needs the entries finite.
-/
import Idealize.ShloMosaic.PureOps.Ideal
import Idealize.ShloMosaic.Lib.ValueIdx

noncomputable section

namespace Cert.Product

open Idealize.ShloMosaic Idealize.ShloMosaic.ValueIdx

/-- Entry (b, s, r) of the batched product of `x` : [8, 4096, 2048] and `w` : [8, 2048, 64]: the sum over the inner
    coordinate d of x[b, s, d] · w[b, d, r]. -/
def batched (x : FVec Ideal ⟨3, ![8, 4096, 2048]⟩ .f32) (w : FVec Ideal ⟨3, ![8, 2048, 64]⟩ .f32) :
    FVec Ideal ⟨3, ![8, 4096, 64]⟩ .f32 :=
  fun i => ∑ d : Fin 2048, x (ix3 (i 0) (i 1) d) * w (ix3 (i 0) d (i 2))

/-- The product read at coordinates. -/
theorem batched_apply (x : FVec Ideal ⟨3, ![8, 4096, 2048]⟩ .f32) (w : FVec Ideal ⟨3, ![8, 2048, 64]⟩ .f32)
    (b : Fin 8) (s : Fin 4096) (r : Fin 64) :
    batched x w (ix3 b s r) = ∑ d : Fin 2048, x (ix3 b s d) * w (ix3 b d r) := rfl

end Cert.Product

end
-- ==== Proof.ArrayProduct.lean ====
/-
  From the blocks to the whole array. The grid has 8 × 4 points; point (b, s) reads rows 1024·s … 1024·s + 1023 of
  batch member b of the left argument and the whole of batch member b of the right argument, and writes back rows
  1024·s … 1024·s + 1023 of batch member b of the result. What it writes is the batched product's entries there, because
  entry (0, r, q) of the stored block is the sum over d of X_b[1024·s + r, d] · W_b[d, q]. The 32 output blocks tile the
  [8, 4096, 64] result, so after the run the result array is the batched product of the two argument arrays.
-/
import proofs.«163234_j52132313039179_1_alg».proof.Proof.Gen.KernelIdeal.Value
import proofs.«163234_j52132313039179_1_alg».proof.Proof.BlockProduct
import proofs.«163234_j52132313039179_1_alg».proof.Proof.Product

noncomputable section

namespace Cert.ArrayProduct

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their staging buffers. -/
theorem origin : (![0, 0, 0] : Fin 3 → Nat) = fun _ => 0 := funext fun a => by fin_cases a <;> rfl

/-- The three index maps over the 32 grid points: the left input's block has the output block's batch and row-block
    indices, the right input's block has its batch index, and every other block index is zero. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (batch member, row block) pair is the output block of some grid point. -/
theorem block_onto : ∀ (b : Fin 8) (s : Fin 4), ∃ t : Fin cfg0.N, win0_2.index t = ![b.val, s.val, 0] :=
  (by decide +kernel : ∀ (b : Fin 8) (s : Fin 4), ∃ t : Fin grid0.N, win0_2.index t = ![b.val, s.val, 0])

/-- What grid point `t` writes back is its block of the batched product of the two argument arrays. -/
theorem flushed_eq (c : Dev nD) (t : Fin cfg0.N) :
    (dats m 0 c).flushed 2 t
      = ((cfg0.win 2).blk t).view.read (Elt Ideal) (Cert.Product.batched (V m c main_arg0) (V m c main_arg1)) := by
  rw [Cert.KernelIdeal.Value.flushed2]
  unfold out0_2
  rw [View.canon_unit_zero origin]
  simp only [View.ld_unit_zero (S := S1x1024x2048) origin, View.ld_unit_zero (S := S1x2048x64) origin]
  obtain ⟨e0, e1, e2, e3, e4, e5, e6⟩ := block_indices t
  funext j
  refine (Cert.BlockProduct.stored_at (iblk m c 0 t) (iblk m c 1 t) j).trans ?_
  show _ = Cert.Product.batched (V m c main_arg0) (V m c main_arg1) (((cfg0.win 2).blk t).view.emb j)
  unfold Cert.Product.batched
  refine Finset.sum_congr rfl fun d _ => ?_
  have hj0 : (j 0).val < 1 := (j 0).isLt
  have h0 : ((cfg0.win 0).blk t).view.emb (ix3 (0 : Fin 1) (j 1) d)
      = ix3 ((((cfg0.win 2).blk t).view.emb j) 0) ((((cfg0.win 2).blk t).view.emb j) 1) d := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 2048 + 1 * d.val = d.val; omega
  have h1 : ((cfg0.win 1).blk t).view.emb (ix3 (0 : Fin 1) d (j 2))
      = ix3 ((((cfg0.win 2).blk t).view.emb j) 0) d ((((cfg0.win 2).blk t).view.emb j) 2) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 2048 + 1 * d.val = d.val; omega
    | ⟨2, _⟩ => show win0_1.index t (2 : Fin 3) * 64 + 1 * (j 2).val = win0_2.index t (2 : Fin 3) * 64 + 1 * (j 2).val; omega
  exact congrArg₂ (fun a b : EReal => a * b) (congrArg (V m c main_arg0) h0) (congrArg (V m c main_arg1) h1)

/-- An index of the result array is in point `t`'s block iff each coordinate is in the block's range on its axis. -/
theorem mem_block (t : Fin cfg0.N) (i : S8x4096x64.Idx) :
    i ∈ ((cfg0.win 2).blk t).view.set ↔ ∀ a : Fin 3, win0_2.index t a * S1x1024x64.size a ≤ (i a).val ∧ (i a).val < win0_2.index t a * S1x1024x64.size a + S1x1024x64.size a := by
  show i ∈ ((View.whole main_v0).slice (win0_2.rect t)).set ↔ _
  rw [View.set_slice_whole, Rect.mem_set_unit]
  exact Iff.rfl

/-- The output blocks tile the result: index (b, s', r) lies in the block of the point with batch index b and row
    block s' / 1024. -/
theorem covered (i : S8x4096x64.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 64 := (i 2).isLt
  obtain ⟨t, ht⟩ := block_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- After the run the result array is the batched product of the two argument arrays. -/
theorem final (c : Dev nD) :
    (dats m 0 c).arrAt 2 cfg0.N
      = Cert.Product.batched (m ((c : Thread nD τ).loc main_arg0)) (m ((c : Thread nD τ).loc main_arg1)) :=
  (dats m 0 c).arrAt_eq_of_cover 2 _ (fun t _ => flushed_eq m c t) covered

/-- The kernel's run on extended reals: it terminates with the result array at the batched product of the argument
    arrays, the arguments unchanged. -/
theorem run : θ_run defs (onTc (τ := τ) (main (F := Ideal))) ⟨m, fun _ => 0, ρ⟩ fun r => ∀ c : Dev nD,
      r.2.mem ((c : Thread nD τ).loc main_v0)
        = Cert.Product.batched (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.ArrayProduct

end
-- ==== Proof.RefProduct.lean ====
/-
  The reference is the batched product. Its one host operation is a `dot_general` with batch axis 0 on both operands,
  contracting the left operand's axis 2 with the right operand's axis 1; read at the output index (b, s, r) it is the
  sum over the inner coordinate d of the left operand at (b, s, d) times the right operand at (b, d, r).
-/
import proofs.«163234_j52132313039179_1_alg».proof.Proof.Gen.ReferenceIdeal.Read
import proofs.«163234_j52132313039179_1_alg».proof.Proof.Product

noncomputable section

namespace Cert.RefProduct

open Cert.ReferenceIdeal Cert.ReferenceIdeal.Gen Cert.ReferenceIdeal.Read
open Idealize.ShloMosaic Idealize.ShloMosaic.ValueIdx

/-- The left operand's index at output index `i` and inner coordinate `d` is (i₀, i₁, d). -/
theorem left_index (i : S8x4096x64.Idx) (d : Fin 2048) : lidx_main_v0 i d = ix3 (i 0) (i 1) d :=
  funext fun a => Fin.ext (by match a with | ⟨0, _⟩ => rfl | ⟨1, _⟩ => rfl | ⟨2, _⟩ => rfl)

/-- The right operand's index at output index `i` and inner coordinate `d` is (i₀, d, i₂). -/
theorem right_index (i : S8x4096x64.Idx) (d : Fin 2048) : ridx_main_v0 i d = ix3 (i 0) d (i 2) :=
  funext fun a => Fin.ext (by match a with | ⟨0, _⟩ => rfl | ⟨1, _⟩ => rfl | ⟨2, _⟩ => rfl)

/-- On the extended reals the reference's `dot_general` of its two arguments is their batched product. -/
theorem reference_eq (x : (⟨S8x4096x2048, .f32⟩ : BufTy).Contents (Elt Ideal)) (w : (⟨S8x2048x64, .f32⟩ : BufTy).Contents (Elt Ideal)) :
    val_main_v0 (F := Ideal) x w = Cert.Product.batched x w := by
  funext i
  rw [val_main_v0_apply]
  simp only [left_index, right_index]
  rfl

end Cert.RefProduct

end
-- ==== Proof.lean ====
/-
  A batched matrix product, out[b] = x[b] · weight[b] for eight batch members, x[b] a 4096 × 2048 matrix and weight[b]
  a 2048 × 64 matrix, computed by a kernel on a grid of 8 × 4 points against one `dot_general` on the host.

  On the extended reals both programs compute the same array: entry (b, s, r) is the sum over the 2048 inner
  coordinates d of x[b, s, d] · weight[b, d, r].
  * The kernel's grid point (b, s) holds rows 1024·s … 1024·s + 1023 of x[b] and the whole of weight[b]; it changes
    both blocks' float format, which is the identity on extended reals, multiplies them into a zero accumulator, and
    writes the 1024 × 64 result to rows 1024·s … 1024·s + 1023 of out[b]. The 32 written blocks tile the result.
  * The reference's `dot_general` has batch axis 0 and contracts x's axis 2 with weight's axis 1.
  Each entry is one finite sum of the same 2048 products on both sides, so no law is needed beyond re-indexing the sum
  by the inner coordinate, and the finiteness of the inputs is never used. The idealization rewrote no operation of the
  kernel, so there is nothing to preserve.
-/
import proofs.«163234_j52132313039179_1_alg».proof.Defs
import proofs.«163234_j52132313039179_1_alg».proof.Proof.Gen.Kernel
import proofs.«163234_j52132313039179_1_alg».proof.Proof.Gen.Kernel.Frame
import proofs.«163234_j52132313039179_1_alg».proof.Proof.Gen.KernelIdeal
import proofs.«163234_j52132313039179_1_alg».proof.Proof.Gen.KernelIdeal.Frame
import proofs.«163234_j52132313039179_1_alg».proof.Proof.Gen.KernelIdeal.Value
import proofs.«163234_j52132313039179_1_alg».proof.Proof.Gen.ReferenceIdeal
import proofs.«163234_j52132313039179_1_alg».proof.Proof.Gen.ReferenceIdeal.Run
import proofs.«163234_j52132313039179_1_alg».proof.Proof.Gen.ReferenceIdeal.Read
import proofs.«163234_j52132313039179_1_alg».proof.Proof.Gen.Pre_finite_inputs
import proofs.«163234_j52132313039179_1_alg».proof.Proof.ArrayProduct
import proofs.«163234_j52132313039179_1_alg».proof.Proof.RefProduct
import Idealize.ShloMosaic.Adequacy
import Idealize.ShloMosaic.Init

noncomputable section

namespace Cert.Proof

open Idealize.ShloMosaic Idealize.ShloMosaic.TcCoe Idealize.SL.Sem

/-- The kernel on machine words runs to the end and leaves its arguments as they were. -/
theorem frame_kernel : Cert.frame_Kernel := fun m ρ _ => Cert.Kernel.Gen.frame m ρ

/-- So does the kernel on extended reals. -/
theorem frame_kernel_ideal : Cert.frame_KernelIdeal := fun m ρ _ => Cert.KernelIdeal.Gen.frame m ρ

/-- The reference's one host operation runs to the end and writes only its result. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From arguments that agree, the kernel and the reference both end with the batched product of the arguments in their
    result array: the kernel block by block over its grid, the reference by its one `dot_general`. -/
theorem algebraic : Cert.algebraic_KernelIdeal_ReferenceIdeal := by
  intro m ρ m' ρ' _ hagree
  refine ⟨fun c => Cert.Product.batched (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.ArrayProduct.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.RefProduct.reference_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
